-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x512 .f32) (main_arg1 : FVec F S512x256 .f32) (main_arg2 : IVec S800000 32) (main_arg3 : IVec S800000 32) (main_arg4 : FVec F S800000 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x512 : Shape := ⟨2, ![50000, 512]⟩
abbrev S512x256 : Shape := ⟨2, ![512, 256]⟩
abbrev S800000 : Shape := ⟨1, ![800000]⟩
abbrev S50000x256 : Shape := ⟨2, ![50000, 256]⟩
abbrev S5000x512 : Shape := ⟨2, ![5000, 512]⟩
abbrev S5000x256 : Shape := ⟨2, ![5000, 256]⟩
abbrev S_ : Shape := ⟨0, ![]⟩
abbrev S800000x1 : Shape := ⟨2, ![800000, 1]⟩
abbrev S800000x256 : Shape := ⟨2, ![800000, 256]⟩

abbrev nBuf : Space → Nat
  | .hbm => 27
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S512x256, .bf16⟩
  | .hbm, ⟨6, _⟩ => ⟨S50000x256, .bf16⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .bf16⟩
  | .hbm, ⟨16, _⟩ => ⟨S800000x256, .f32⟩
  | .hbm, ⟨17, _⟩ => ⟨S800000x1, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S_, .f32⟩
  | .hbm, ⟨25, _⟩ => ⟨S50000x256, .f32⟩
  | .hbm, ⟨26, _⟩ => ⟨S50000x256, .f32⟩
  | .local _ .vmem, ⟨0, _⟩ => ⟨S5000x512, .f32⟩
  | .local _ .vmem, ⟨1, _⟩ => ⟨S5000x512, .f32⟩
  | .local _ .vmem, ⟨2, _⟩ => ⟨S512x256, .bf16⟩
  | .local _ .vmem, ⟨3, _⟩ => ⟨S5000x256, .bf16⟩
  | .local _ .vmem, ⟨4, _⟩ => ⟨S5000x256, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S5000x512_S512x256_S5000x256_1_0_0_1_n_n_wf : DotDims.WF S5000x512 S512x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S800000 : Shape := ⟨1, ![800000]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩

abbrev nBuf : Space → Nat
  | .hbm => 25
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.BlockProduct.lean ====
/-
  One grid step of the dense layer. The body loads a block of 5000 node rows of `x` (512 input features each)
  and the whole weight matrix (512 × 256), multiplies them on the matrix unit into a zero accumulator, and stores
  the product. Over the extended reals a change of float format is the identity and the product into a zero
  accumulator is the bare sum over the contracted axis, so entry (p, q) of what the step stores is
      Σ_{k < 512}  xblock[p, k] · w[k, q].
  The contraction index of the dot record has one axis of extent 512; the sum is re-indexed by that coordinate.
-/
import proofs.«427016_j6038724019025_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-- The left operand is read at the output's row … -/
theorem lhs_row (i : S5000x256.Idx) (q : dot_S5000x512_S512x256_S5000x256_1_0_0_1_n_n.contr.Idx) :
    (dot_S5000x512_S512x256_S5000x256_1_0_0_1_n_n.lhsIdx i q 0).val = (i 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
/-- … and at the contracted feature; -/
theorem lhs_feature (i : S5000x256.Idx) (q : dot_S5000x512_S512x256_S5000x256_1_0_0_1_n_n.contr.Idx) :
    (dot_S5000x512_S512x256_S5000x256_1_0_0_1_n_n.lhsIdx i q 1).val = (q ⟨0, by decide⟩).val :=
  dot_S5000x512_S512x256_S5000x256_1_0_0_1_n_n.lhsIdx_val_of_single rfl i q
/-- the right operand at the contracted feature … -/
theorem rhs_feature (i : S5000x256.Idx) (q : dot_S5000x512_S512x256_S5000x256_1_0_0_1_n_n.contr.Idx) :
    (dot_S5000x512_S512x256_S5000x256_1_0_0_1_n_n.rhsIdx i q 0).val = (q ⟨0, by decide⟩).val :=
  dot_S5000x512_S512x256_S5000x256_1_0_0_1_n_n.rhsIdx_val_of_single rfl i q
/-- … and at the output's column. -/
theorem rhs_col (i : S5000x256.Idx) (q : dot_S5000x512_S512x256_S5000x256_1_0_0_1_n_n.contr.Idx) :
    (dot_S5000x512_S512x256_S5000x256_1_0_0_1_n_n.rhsIdx i q 1).val = (i 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- What one step stores, entry by entry: the row of the block of `x` against the column of the weights. -/
theorem stored_apply (xb : Vec Ideal S5000x512 .f32) (w : Vec Ideal S512x256 .bf16) (p : Fin 5000) (q : Fin 256) :
    k0_pay1 (F := Ideal) xb w (ix2 p q) = ∑ k : Fin 512, xb (ix2 p k) * w (ix2 k q) := by
  unfold k0_pay1
  show FloatOps.matmul (F := Ideal) dot_S5000x512_S512x256_S5000x256_1_0_0_1_n_n none (truncf .bf16 (xb : FVec Ideal S5000x512 .f32) bitsLt_bf16_f32) (shapeCast S512x256 (w : FVec Ideal S512x256 .bf16) shapeCasts_S512x256_S512x256) (constant S5000x256 .f32 0x00000000#32) (ix2 p q) = _
  rw [shapeCast_self, Ideal.matmul_constant_zero_apply, ← Equiv.sum_comp (contrEquiv1 dot_S5000x512_S512x256_S5000x256_1_0_0_1_n_n 512 rfl rfl).symm]
  refine Finset.sum_congr rfl fun k _ => ?_
  have hk := contrEquiv1_symm_val dot_S5000x512_S512x256_S5000x256_1_0_0_1_n_n 512 rfl rfl k
  have el : dot_S5000x512_S512x256_S5000x256_1_0_0_1_n_n.lhsIdx (ix2 p q) ((contrEquiv1 dot_S5000x512_S512x256_S5000x256_1_0_0_1_n_n 512 rfl rfl).symm k) = ix2 p k := funext fun a => Fin.ext (by
    match a with
    | ⟨0, _⟩ => exact lhs_row _ _
    | ⟨1, _⟩ => exact (lhs_feature _ _).trans hk)
  have er : dot_S5000x512_S512x256_S5000x256_1_0_0_1_n_n.rhsIdx (ix2 p q) ((contrEquiv1 dot_S5000x512_S512x256_S5000x256_1_0_0_1_n_n 512 rfl rfl).symm k) = ix2 k q := funext fun a => Fin.ext (by
    match a with
    | ⟨0, _⟩ => exact (rhs_feature _ _).trans hk
    | ⟨1, _⟩ => exact rhs_col _ _)
  rw [el, er]
  rfl

end Cert.KernelIdeal.BlockProduct

end
-- ==== Proof.DenseLayer.lean ====
/-
  The dense layer both programs start from: the node features `x` (50000 nodes × 512 inputs) times the weight
  matrix `w` (512 × 256), over the extended reals — entry (n, o) is  Σ_{k < 512} x[n, k] · w[k, o].
  No program is mentioned here; the two sides are each shown to compute this table.
-/
import Idealize.ShloMosaic.Lib.ValueIdx

noncomputable section

open scoped BigOperators

namespace Cert.DenseLayer

open Idealize.ShloMosaic Idealize.ShloMosaic.ValueIdx

/-- The table of transformed node features, `h = x · w`. -/
def features (x : (⟨2, ![50000, 512]⟩ : Shape).Idx → EReal) (w : (⟨2, ![512, 256]⟩ : Shape).Idx → EReal) :
    (⟨2, ![50000, 256]⟩ : Shape).Idx → EReal :=
  fun i => ∑ k : Fin 512, x (ix2 (i 0) k) * w (ix2 k (i 1))

end Cert.DenseLayer

end
-- ==== Proof.KernelArray.lean ====
/-
  The table the kernel's one region leaves in its output array. The region runs over 10 grid steps; step `t`
  reads rows [5000·t, 5000·t + 5000) of `x` and the whole weight matrix (cast to bf16 by the host before the
  region, which changes nothing over the extended reals), and writes rows [5000·t, 5000·t + 5000) of the output.
  By the block product, entry (p, q) of what step `t` writes is  Σ_k x[5000·t + p, k] · w[k, q], which is entry
  (5000·t + p, q) of the dense layer's table `x · w`. The ten row blocks tile the 50000 rows (row `r` lies in the
  block of step `r / 5000`), so after the region the whole array is `x · w`.
-/
import proofs.«427016_j6038724019025_3_alg».proof.Proof.Gen.KernelIdeal.Frame
import proofs.«427016_j6038724019025_3_alg».proof.Proof.BlockProduct
import proofs.«427016_j6038724019025_3_alg».proof.Proof.DenseLayer
import Idealize.ShloMosaic.Lib.ValueIdx
import Idealize.ShloMosaic.Lib.Pipeline.Value
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

variable (m : (ℓ : Loc nD τ sig) → Buf (Elt Ideal) ℓ)

theorem origin : (![0, 0] : Fin 2 → Nat) = fun _ => 0 := funext fun a => by fin_cases a <;> rfl

/-- The weights as the region finds them: the host's cast of `w` to bf16, which over the extended reals is `w`. -/
theorem weights_entry (c : Dev nD) :
    (V m c main_v0 : S512x256.Idx → EReal) = (m ((c : Thread nD τ).loc main_arg1) : S512x256.Idx → EReal) := by
  show StableHlo.after hostOps0 (fun b => m (c, b)) (Proc.devRef .tc main_v0) = _
  after_results
  rfl

/-- The printed index maps over the grid: the input rows move with the output rows, block `t` is the `t`-th row
    block, and every other block index is 0. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Step `t`'s block of `x`, entry (p, k): row 5000·t + p of `x`. -/
theorem x_block_apply (c : Dev nD) (t : Fin cfg0.N) (p : Fin 5000) (k : Fin 512) (r : Fin 50000)
    (hr : r.val = t.val * 5000 + p.val) :
    (iblk m c 0 t : S5000x512.Idx → EReal) (ix2 p k) = (m ((c : Thread nD τ).loc main_arg0) : S50000x512.Idx → EReal) (ix2 r k) := by
  show V m c main_arg0 (((cfg0.win 0).blk t).view.emb (ix2 p k)) = _
  rw [V_main_arg0]
  obtain ⟨e0, e1, -, -, -, -⟩ := block_indices t
  refine congrArg _ (funext fun a => Fin.ext ?_)
  match a with
  | ⟨0, _⟩ => show win0_0.index t (0 : Fin 2) * 5000 + 1 * p.val = r.val; omega
  | ⟨1, _⟩ => show win0_0.index t (1 : Fin 2) * 512 + 1 * k.val = k.val; omega

/-- Step `t`'s block of the weights is all of them. -/
theorem w_block_apply (c : Dev nD) (t : Fin cfg0.N) (k : Fin 512) (q : Fin 256) :
    (iblk m c 1 t : S512x256.Idx → EReal) (ix2 k q) = (m ((c : Thread nD τ).loc main_arg1) : S512x256.Idx → EReal) (ix2 k q) := by
  show V m c main_v0 (((cfg0.win 1).blk t).view.emb (ix2 k q)) = _
  rw [weights_entry]
  obtain ⟨-, -, e2, e3, -, -⟩ := block_indices t
  refine congrArg _ (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

/-- WHAT STEP `t` WRITES BACK is rows [5000·t, 5000·t + 5000) of `x · w`. -/
theorem written_eq (c : Dev nD) (t : Fin cfg0.N) :
    (dats m 0 c).flushed 2 t = ((cfg0.win 2).blk t).view.read (Elt Ideal)
      (Cert.DenseLayer.features (m ((c : Thread nD τ).loc main_arg0)) (m ((c : Thread nD τ).loc main_arg1))) := by
  show (cfg0.win 2).cut (grid0.coords t) ((dats m 0 c).after 2 t) = _
  rw [after0_2]
  unfold out0_2
  rw [View.canon_unit_zero origin]
  simp only [View.ld_unit_zero (S := S5000x512) origin, View.ld_unit_zero (S := S512x256) origin]
  funext j
  obtain ⟨p, q, rfl⟩ : ∃ (p : Fin 5000) (q : Fin 256), j = ix2 p q := ⟨j 0, j 1, eq_ix2 j⟩
  show k0_pay1 (F := Ideal) (iblk m c 0 t) (iblk m c 1 t) (ix2 p q)
    = Cert.DenseLayer.features (m ((c : Thread nD τ).loc main_arg0)) (m ((c : Thread nD τ).loc main_arg1)) (((cfg0.win 2).blk t).view.emb (ix2 p q))
  refine (BlockProduct.stored_apply (iblk m c 0 t) (iblk m c 1 t) p q).trans ?_
  obtain ⟨-, -, -, -, e4, e5⟩ := block_indices t
  unfold Cert.DenseLayer.features
  refine Finset.sum_congr rfl fun k _ => ?_
  have hrow : ((((cfg0.win 2).blk t).view.emb (ix2 p q)) 0).val = t.val * 5000 + p.val := by
    show win0_2.index t (0 : Fin 2) * 5000 + 1 * p.val = _; omega
  have hcol : ((((cfg0.win 2).blk t).view.emb (ix2 p q)) 1) = q := Fin.ext (by
    show win0_2.index t (1 : Fin 2) * 256 + 1 * q.val = _; omega)
  rw [x_block_apply m c t p k _ hrow, w_block_apply m c t k q, hcol]

/-- An index of the output array is in step `t`'s block iff each coordinate is in the block's range. -/
theorem mem_block (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v1).slice (win0_2.rect t)).set ↔ _
  rw [View.set_slice_whole, Rect.mem_set_unit]
  exact Iff.rfl

/-- The ten row blocks cover the array: row `r` is written by step `r / 5000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  have htv : t.val = (i 0).val / 5000 := rfl
  obtain ⟨-, -, -, -, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE OUTPUT ARRAY after the region is the dense layer's table `x · w`. -/
theorem features_array (c : Dev nD) :
    (dats m 0 c).arrAt 2 cfg0.N
      = Cert.DenseLayer.features (m ((c : Thread nD τ).loc main_arg0)) (m ((c : Thread nD τ).loc main_arg1)) :=
  (dats m 0 c).arrAt_eq_of_cover 2 _ (fun t _ => written_eq m c t) covered

end Cert.KernelIdeal.Array

end
-- ==== Proof.Aggregation.lean ====
/-
  Everything both programs do after the dense layer, as ONE function of the feature table `h` (50000 × 256) and
  the edge lists: a negative source index is wrapped by adding 50000, row `src_e` of `h` is gathered for every
  edge `e` (the start index clamped into the table), scaled by the edge's weight, the 800000 scaled rows are
  added into a zero table at row `dst_e`, and the result is clamped below at 0:
      out[d, o] = max (0, Σ_{e : dst_e = d} weight_e · h[src_e, o]).
  The two programs differ only in how they obtain `h`; this function is never opened.
-/
import proofs.«427016_j6038724019025_3_alg».proof.Proof.Gen.ReferenceIdeal
import Idealize.ShloMosaic.PureOps.Ideal

noncomputable section

namespace Cert.ReferenceIdeal.Aggregation

open Cert.ReferenceIdeal Cert.ReferenceIdeal.Gen Idealize.ShloMosaic

/-- The weighted neighbourhood sum of the rows of `h`, followed by the rectifier. -/
def aggregate (h : FVec Ideal S50000x256 .f32) (src dst : IVec S800000 32) (ew : FVec Ideal S800000 .f32) :
    FVec Ideal S50000x256 .f32 :=
  maximumf (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 dst) (mulf (broadcastInDim S800000x256 ![0, 1] bcast_S800000x1_S800000x256_0_1 (broadcastInDim S800000x1 ![0] bcast_S800000_S800000x1_0 ew)) (Host.gather gather_S50000x256_S800000x1_S800000x256_1_0_n_n_0_1_1256 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x256 ![] bcast_S_S50000x256 (constant (F := Ideal) S_ .f32 0x00000000#32))

end Cert.ReferenceIdeal.Aggregation

end
-- ==== Proof.KernelRun.lean ====
/-
  The kernel's run, re-posted over the two named functions. The region leaves the table `x · w` in its output
  array. The host lines after the region come in two stretches. The first gathers the rows of that array named by
  the (wrapped) source indices, widens them from bf16 (an identity over the extended reals), scales each by its
  edge's weight and adds the scaled rows into a zero table at the destination rows; the second is the rectifier,
  the maximum with a zero table. With the widening dropped their text is the aggregation's.
-/
import proofs.«427016_j6038724019025_3_alg».proof.Proof.KernelArray
import proofs.«427016_j6038724019025_3_alg».proof.Proof.Aggregation

set_option maxRecDepth 16384

noncomputable section

namespace Cert.KernelIdeal.KernelRun

open Cert.KernelIdeal Cert.KernelIdeal.Gen Idealize.ShloMosaic Idealize.ShloMosaic.TcCoe
open Idealize.SL.Sem Idealize.ShloMosaic.Pipeline Idealize.ShloMosaic.StableHlo

/-- Two stretches of host lines run one after the other. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The first stretch as the kernel program prints it, over the table `h` the region left (held as bf16): the
    weighted rows `weight_e · h[src_e]` added into a zero table at rows `dst_e`. -/
def summed (h : FVec Ideal S50000x256 .bf16) (src dst : IVec S800000 32) (ew : FVec Ideal S800000 .f32) :
    FVec Ideal S50000x256 .f32 :=
  Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 dst) (mulf (broadcastInDim S800000x256 ![0, 1] bcast_S800000x1_S800000x256_0_1 (broadcastInDim S800000x1 ![0] bcast_S800000_S800000x1_0 ew)) (extf .f32 (Host.gather gather_S50000x256_S800000x1_S800000x256_1_0_n_n_0_1_1256 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) bitsLt_bf16_f32))

/-- Widening the gathered bf16 rows changes nothing over the extended reals: the gather reads the same entries. -/
theorem gathered_eq (h : S50000x256.Idx → EReal) (idx : IVec S800000x1 32) :
    extf (F := Ideal) .f32 (Host.gather gather_S50000x256_S800000x1_S800000x256_1_0_n_n_0_1_1256 (h : FVec Ideal S50000x256 .bf16) idx) bitsLt_bf16_f32
      = Host.gather Cert.ReferenceIdeal.gather_S50000x256_S800000x1_S800000x256_1_0_n_n_0_1_1256 (h : FVec Ideal Cert.ReferenceIdeal.S50000x256 .f32) idx := rfl

/-- The kernel's two stretches together are the aggregation. -/
theorem rectified_summed_eq (h : S50000x256.Idx → EReal) (src dst : IVec S800000 32) (ew : FVec Ideal S800000 .f32) :
    maximumf (summed h src dst ew) (broadcastInDim S50000x256 ![] bcast_S_S50000x256 (constant (F := Ideal) S_ .f32 0x00000000#32))
      = Cert.ReferenceIdeal.Aggregation.aggregate h src dst ew := by
  unfold summed Cert.ReferenceIdeal.Aggregation.aggregate
  rw [gathered_eq]
  rfl

/-- The rectifier's stretch over any contents: the result buffer ends at the maximum of what the sum's buffer
    holds and the zero table. -/
theorem rectifier_stretch (V : Valuation τ sig (Elt Ideal)) :
    StableHlo.after hostOps1_1 V (Proc.devRef .tc main_v16)
      = maximumf (V (Proc.devRef .tc main_v15) : FVec Ideal S50000x256 .f32) (broadcastInDim S50000x256 ![] bcast_S_S50000x256 (constant (F := Ideal) S_ .f32 0x00000000#32)) := by
  after_results
  rfl

variable (m : (ℓ : Loc nD τ sig) → Buf (Elt Ideal) ℓ) (ρ : Dev nD → PrngReg)

/-- The first stretch, run from what the region left: the sum's buffer ends at `summed` of the region's table
    and the edge lists as launched. -/
theorem summed_stretch (c : Dev nD) :
    StableHlo.after hostOps1 (withArrays (cfgs 0).spec c (V0 m c) (fun w => (dats m 0 c).arrAt w (cfgs 0).N)) (Proc.devRef .tc main_v15)
      = summed (Cert.DenseLayer.features (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  have hh : (withArrays (cfgs 0).spec c (V0 m c) (fun w => (dats m 0 c).arrAt w (cfgs 0).N)) (Proc.devRef .tc main_v1)
      = Cert.DenseLayer.features (m ((c.tc : Thread nD τ).loc main_arg0)) (m ((c.tc : Thread nD τ).loc main_arg1)) :=
    (Pipeline.withArrays_arr spec0 launch0.win.arr_inj c _ _ 2).trans (Array.features_array m c)
  have h2 : (withArrays (cfgs 0).spec c (V0 m c) (fun w => (dats m 0 c).arrAt w (cfgs 0).N)) (Proc.devRef .tc main_arg2) = m ((c.tc : Thread nD τ).loc main_arg2) :=
    (Pipeline.withArrays_of_ne _ c (V0 m c) _ main_arg2 (by exact (by decide : ∀ w, Pipeline.arrRef spec0 w ≠ main_arg2))).trans (V_main_arg2 m c)
  have h3 : (withArrays (cfgs 0).spec c (V0 m c) (fun w => (dats m 0 c).arrAt w (cfgs 0).N)) (Proc.devRef .tc main_arg3) = m ((c.tc : Thread nD τ).loc main_arg3) :=
    (Pipeline.withArrays_of_ne _ c (V0 m c) _ main_arg3 (by exact (by decide : ∀ w, Pipeline.arrRef spec0 w ≠ main_arg3))).trans (V_main_arg3 m c)
  have h4 : (withArrays (cfgs 0).spec c (V0 m c) (fun w => (dats m 0 c).arrAt w (cfgs 0).N)) (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  after_results
  rw [hh, h2, h3, h4]
  rfl

/-- What the lines after the region leave in the result buffer: the aggregation of the region's table. -/
theorem result_eq (c : Dev nD) :
    Pipeline.afterTail₀ cfgs (dats m) 0 (V0 m) [hostOps1, hostOps1_1] c main_v16
      = Cert.ReferenceIdeal.Aggregation.aggregate
          (Cert.DenseLayer.features (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  unfold Pipeline.afterTail₀
  rw [show ([hostOps1, hostOps1_1] : List (List (HloOp τ sig (Elt Ideal)))).flatten = hostOps1 ++ hostOps1_1 from by
      simp only [List.flatten_cons, List.flatten_nil, List.append_nil],
    after_append, rectifier_stretch, summed_stretch m c]
  exact rectified_summed_eq _ _ _ _

/-- Every weakly fair execution of the kernel program ends with its result at `aggregate (x · w)` of the edge
    lists, its arguments unchanged. -/
theorem run :
    θ_run defs (onTc (τ := τ) (main (F := Ideal))) ⟨m, fun _ => 0, ρ⟩ fun r => ∀ c : Dev nD,
      r.2.mem ((c.tc : Thread nD τ).loc main_v16)
        = Cert.ReferenceIdeal.Aggregation.aggregate
            (Cert.DenseLayer.features (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v16 (Pipeline.mem_restRefs_of main_v16 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelRun

end
-- ==== Proof.RefDense.lean ====
/-
  The reference's first operation, `x @ w` as one host `dot_general`, is the dense layer's table: over the extended
  reals its entry (n, o) is the sum over the contracted feature k of x[n, k] · w[k, o].
-/
import proofs.«427016_j6038724019025_3_alg».proof.Proof.Gen.ReferenceIdeal.Read
import proofs.«427016_j6038724019025_3_alg».proof.Proof.DenseLayer

noncomputable section

namespace Cert.ReferenceIdeal.Dense

open Cert.ReferenceIdeal Cert.ReferenceIdeal.Gen Idealize.ShloMosaic Idealize.ShloMosaic.ValueIdx

/-- The host product is `x · w`, entry by entry. -/
theorem product_eq (x : FVec Ideal S50000x512 .f32) (w : FVec Ideal S512x256 .f32) :
    Host.dotGeneral (F := Ideal) dot_S50000x512_S512x256_S50000x256_1_0_0_1_n_n none x w = Cert.DenseLayer.features x w := by
  funext i
  show Read.val_main_v0 (F := Ideal) x w i = _
  rw [Read.val_main_v0_apply]
  unfold Cert.DenseLayer.features
  refine Finset.sum_congr rfl fun k _ => ?_
  have el : Read.lidx_main_v0 i k = ix2 (i 0) k := funext fun a => by
    match a with
    | ⟨0, _⟩ => rfl
    | ⟨1, _⟩ => rfl
  have er : Read.ridx_main_v0 i k = ix2 k (i 1) := funext fun a => by
    match a with
    | ⟨0, _⟩ => rfl
    | ⟨1, _⟩ => rfl
  rw [el, er]
  rfl

end Cert.ReferenceIdeal.Dense

end
-- ==== Proof.RefRun.lean ====
/-
  The reference's run, re-posted over the two named functions: its result is the aggregation of the dense layer's
  table `x · w`. (The host product is that table, entry by entry; the rest of the program is the aggregation's text.)
-/
import proofs.«427016_j6038724019025_3_alg».proof.Proof.Gen.ReferenceIdeal.Run
import proofs.«427016_j6038724019025_3_alg».proof.Proof.RefDense
import proofs.«427016_j6038724019025_3_alg».proof.Proof.Aggregation

noncomputable section

namespace Cert.ReferenceIdeal.RefRun

open Cert.ReferenceIdeal Cert.ReferenceIdeal.Gen Idealize.ShloMosaic Idealize.ShloMosaic.TcCoe Idealize.SL.Sem

/-- Every weakly fair execution of the reference ends with its result at `aggregate (x · w)` of the edge lists,
    its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = Aggregation.aggregate (Cert.DenseLayer.features (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      rw [← Dense.product_eq (m ((c.tc : Thread nD τ).loc main_arg0)) (m ((c.tc : Thread nD τ).loc main_arg1))]
      rfl), (h c).2⟩)
    (Cert.ReferenceIdeal.Value.run (F := Ideal) m ρ)

end Cert.ReferenceIdeal.RefRun

end
-- ==== Proof.lean ====
/-
  A graph-convolution layer: `h = x · w` (50000 nodes, 512 → 256 features), then for every destination node the
  weighted sum of the rows of `h` at the sources of its incoming edges, then the rectifier:
      out[d, o] = max (0, Σ_{e : dst_e = d} weight_e · h[src_e, o]).
  The kernel computes `h` on a grid of ten row blocks, each block's product taken on the matrix unit from bf16
  casts of `x` and `w` into a zero accumulator and stored as bf16; the reference computes `h` as one product.
  Over the extended reals a change of float format is the identity and a product into a zero accumulator is the
  plain sum over the contracted axis, so each block the kernel writes is the corresponding rows of `x · w`
  (Proof/BlockProduct.lean), the ten blocks tile the table (Proof/KernelArray.lean), and the reference's product is
  the same table (Proof/RefDense.lean). After `h` both programs run the same lines — wrap negative source indices,
  gather, scale, scatter-add into zeros, rectify — which are named once (Proof/Aggregation.lean) and never opened:
  both results are that one function of the one table (Proof/KernelRun.lean, Proof/RefRun.lean). No law of
  arithmetic beyond `0 + s = s` is used, so the inputs' finiteness is never consulted.
  The three frames: the kernel programs' are their generated frame runs; the reference's is its run with the result
  dropped. The idealization rewrote no operation, so there is nothing to preserve.
-/
import proofs.«427016_j6038724019025_3_alg».proof.Defs
import proofs.«427016_j6038724019025_3_alg».proof.Proof.Gen.Kernel
import proofs.«427016_j6038724019025_3_alg».proof.Proof.Gen.Kernel.Skeleton
import proofs.«427016_j6038724019025_3_alg».proof.Proof.Gen.Kernel.Launch
import proofs.«427016_j6038724019025_3_alg».proof.Proof.Gen.Kernel.Points
import proofs.«427016_j6038724019025_3_alg».proof.Proof.Gen.Kernel.Frame
import proofs.«427016_j6038724019025_3_alg».proof.Proof.Gen.KernelIdeal
import proofs.«427016_j6038724019025_3_alg».proof.Proof.Gen.KernelIdeal.Skeleton
import proofs.«427016_j6038724019025_3_alg».proof.Proof.Gen.KernelIdeal.Launch
import proofs.«427016_j6038724019025_3_alg».proof.Proof.Gen.KernelIdeal.Points
import proofs.«427016_j6038724019025_3_alg».proof.Proof.Gen.KernelIdeal.Frame
import proofs.«427016_j6038724019025_3_alg».proof.Proof.Gen.ReferenceIdeal
import proofs.«427016_j6038724019025_3_alg».proof.Proof.Gen.ReferenceIdeal.Run
import proofs.«427016_j6038724019025_3_alg».proof.Proof.Gen.ReferenceIdeal.Read
import proofs.«427016_j6038724019025_3_alg».proof.Proof.Gen.Pre_finite_inputs
import proofs.«427016_j6038724019025_3_alg».proof.Proof.KernelRun
import proofs.«427016_j6038724019025_3_alg».proof.Proof.RefRun
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and keeps its arguments: its run, with what it says of the result dropped. -/
theorem frame_reference_ideal : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- From memories that agree on the arguments both programs end with the aggregation of `x · w`. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
